-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S100000x128 .f32) (main_arg1 : IVec S2x1600000 32) (main_arg2 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  main_v8
-- ==== Kernel.lean ====
abbrev S100000x128 : Shape := ⟨2, ![100000, 128]⟩
abbrev S2x1600000 : Shape := ⟨2, ![2, 1600000]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x128 : Shape := ⟨2, ![5000, 128]⟩
abbrev S5000x1 : Shape := ⟨2, ![5000, 1]⟩
abbrev S1600000x128 : Shape := ⟨2, ![1600000, 128]⟩

abbrev nBuf : Space → Nat
  | .hbm => 34
  | .vmem => 13
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S1x1600000, .i32⟩
  | .hbm, ⟨4, _⟩ => ⟨S1600000, .i32⟩
  | .hbm, ⟨5, _⟩ => ⟨S1x1600000, .i32⟩
  | .hbm, ⟨6, _⟩ => ⟨S1600000, .i32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S100000, .f32⟩
  | .hbm, ⟨17, _⟩ => ⟨S100000x1, .f32⟩
  | .hbm, ⟨18, _⟩ => ⟨S100000x128, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x128, .f32⟩
  | .hbm, ⟨28, _⟩ => ⟨S_, .f32⟩
  | .hbm, ⟨29, _⟩ => ⟨S100000x128, .f32⟩
  | .hbm, ⟨30, _⟩ => ⟨S1600000x1, .i32⟩
  | .hbm, ⟨31, _⟩ => ⟨S100000x128, .f32⟩
  | .hbm, ⟨32, _⟩ => ⟨S100000x128, .f32⟩
  | .hbm, ⟨33, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x1, .f32⟩
  | .local _ .vmem, ⟨9, _⟩ => ⟨S5000x1, .f32⟩
  | .local _ .vmem, ⟨10, _⟩ => ⟨S128x128, .f32⟩
  | .local _ .vmem, ⟨11, _⟩ => ⟨S5000x128, .f32⟩
  | .local _ .vmem, ⟨12, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_v13 : Ref sig .tc := ⟨.hbm, 20, rfl⟩
abbrev main_v14 : Ref sig .tc := ⟨.hbm, 21, rfl⟩
abbrev main_c_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v23) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩

abbrev nBuf : Space → Nat
  | .hbm => 39
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S1x1600000, .i32⟩
  | .hbm, ⟨4, _⟩ => ⟨S1600000, .i32⟩
  | .hbm, ⟨5, _⟩ => ⟨S1x1600000, .i32⟩
  | .hbm, ⟨6, _⟩ => ⟨S1600000, .i32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S100000, .f32⟩
  | .hbm, ⟨17, _⟩ => ⟨S100000x1, .f32⟩
  | .hbm, ⟨18, _⟩ => ⟨S100000x128, .f32⟩
  | .hbm, ⟨19, _⟩ => ⟨S100000x128, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x128, .f32⟩
  | .hbm, ⟨29, _⟩ => ⟨S_, .f32⟩
  | .hbm, ⟨30, _⟩ => ⟨S100000x128, .f32⟩
  | .hbm, ⟨31, _⟩ => ⟨S1600000x1, .i32⟩
  | .hbm, ⟨32, _⟩ => ⟨S100000x128, .f32⟩
  | .hbm, ⟨33, _⟩ => ⟨S100000x128, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_v14 : Ref sig .tc := ⟨.hbm, 21, rfl⟩
abbrev main_v15 : Ref sig .tc := ⟨.hbm, 22, rfl⟩
abbrev main_c_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  transposes_S128x128_S128x128_1_0 : S128x128.Transposes [1, 0] S128x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.ScaleValue.lean ====
/-
  The first kernel region, read as a value. At grid point `t` the body multiplies rows `5000 t … 5000 t + 4999` of its
  first operand, entry by entry, with the one entry its second operand (a column) holds for that row, and the twenty
  row blocks tile the output array. So after the region the output array is ONE function of the two operand arrays as
  the region found them: `out (r, j) = x (r, j) · s (r, 0)`.
-/
import proofs.«177741_j15436112462151_1_alg».proof.Proof.Gen.KernelIdeal.Frame
import Idealize.ShloMosaic.Lib.Pipeline.Value
import Idealize.ShloMosaic.Lib.ValueIdx

set_option maxRecDepth 16384

noncomputable section

namespace Cert.KernelIdeal.Scale

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem off_zero : (![0, 0] : Fin 2 → Nat) = fun _ => 0 := funext fun a => by fin_cases a <;> rfl

/-- The column entry that belongs to an index's row: `(r, j) ↦ (r, 0)`, in the whole array … -/
abbrev rowOf (i : S100000x128.Idx) : S100000x1.Idx := fun a => match a with
  | ⟨0, _⟩ => ⟨(i 0).val, (i 0).isLt⟩
  | ⟨1, _⟩ => ⟨0, Nat.one_pos⟩

/-- … and inside one block of 5000 rows. -/
abbrev rowOfBlk (y : S5000x128.Idx) : S5000x1.Idx := fun a => match a with
  | ⟨0, _⟩ => ⟨(y 0).val, (y 0).isLt⟩
  | ⟨1, _⟩ => ⟨0, Nat.one_pos⟩

/-- Every row of `x` scaled by that row's entry of the column `s`. -/
def scaled (x : S100000x128.Idx → Elt F .f32) (s : S100000x1.Idx → Elt F .f32) : S100000x128.Idx → Elt F .f32 :=
  fun i => FloatOps.mulf (x i) (s (rowOf i))

/-- The body's arithmetic at an entry of the block: the loaded entry times its row's entry of the loaded column
    (the column is cast to its own shape, then repeated along the lanes). -/
theorem pay_apply (x0 : Vec F S5000x128 .f32) (x1 : Vec F S5000x1 .f32) (y : S5000x128.Idx) :
    k0_pay1 x0 x1 y = FloatOps.mulf (x0 y) (x1 (rowOfBlk y)) := by
  unfold k0_pay1
  show FloatOps.mulf (x0 y) (broadcastTo S5000x128 (shapeCast S5000x1 x1 Facts₀.shapeCasts_S5000x1_S5000x1) Facts₀.broadcasts_S5000x1_S5000x128 y) = _
  rw [shapeCast_self]
  refine congrArg _ (broadcastTo_apply x1 Facts₀.broadcasts_S5000x1_S5000x128 y (rowOfBlk y) fun a => ?_)
  match a with
  | ⟨0, _⟩ => show (y 0).val = if (5000 : Nat) = 1 then 0 else (y 0).val; rw [if_neg (by decide)]
  | ⟨1, _⟩ => show 0 = if (1 : Nat) = 1 then 0 else (y 1).val; rw [if_pos rfl]

/-- The three windows' index maps over the grid: point `t` fetches and writes row block `t`, lane block `0`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `scaled` of the two operand arrays as the region found them. -/
theorem flushed_eq (c : Dev nD) (t : Fin cfg0.N) :
    (dat0 V c).flushed 2 t = ((cfg0.win 2).blk t).view.read (Elt F) (scaled (V c main_arg0) (V c main_v11)) := by
  show (cfg0.win 2).cut (grid0.coords t) ((dat0 V c).after 2 t) = _
  rw [after0_2]
  unfold out0_2
  rw [View.canon_unit_zero off_zero]
  simp only [View.ld_unit_zero (S := S5000x128) off_zero, View.ld_unit_zero (S := S5000x1) off_zero]
  obtain ⟨e00, e01, e10, e11, e20, e21⟩ := idx_facts t
  funext y
  show k0_pay1 (iblk0 V c 0 t) (iblk0 V c 1 t) y = scaled (V c main_arg0) (V c main_v11) (((cfg0.win 2).blk t).view.emb y)
  refine (pay_apply (iblk0 V c 0 t) (iblk0 V c 1 t) y).trans ?_
  unfold scaled
  have h0 : iblk0 V c 0 t y = V c main_arg0 (((cfg0.win 2).blk t).view.emb y) := by
    show V c main_arg0 (((cfg0.win 0).blk t).view.emb y) = _
    refine congrArg _ (funext fun a => Fin.ext ?_)
    match a with
    | ⟨0, _⟩ => show win0_0.index t (0 : Fin 2) * 5000 + 1 * (y 0).val = win0_2.index t (0 : Fin 2) * 5000 + 1 * (y 0).val; rw [e00, e20]
    | ⟨1, _⟩ => show win0_0.index t (1 : Fin 2) * 128 + 1 * (y 1).val = win0_2.index t (1 : Fin 2) * 128 + 1 * (y 1).val; rw [e01, e21]
  have h1 : iblk0 V c 1 t (rowOfBlk y) = V c main_v11 (rowOf (((cfg0.win 2).blk t).view.emb y)) := by
    show V c main_v11 (((cfg0.win 1).blk t).view.emb (rowOfBlk y)) = _
    refine congrArg _ (funext fun a => Fin.ext ?_)
    match a with
    | ⟨0, _⟩ => show win0_1.index t (0 : Fin 2) * 5000 + 1 * (y 0).val = win0_2.index t (0 : Fin 2) * 5000 + 1 * (y 0).val; rw [e10, e20]
    | ⟨1, _⟩ => show win0_1.index t (1 : Fin 2) * 1 + 1 * 0 = 0; rw [e11]
  rw [h0, h1]

/-- An index of the output array lies in point `t`'s block iff each coordinate lies in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v12).slice (win0_2.rect t)).set ↔ _
  rw [View.set_slice_whole, Rect.mem_set_unit]
  exact Iff.rfl

/-- The twenty row blocks tile the array (row `r` lies in block `r / 5000`), so after the region the output array
    is `scaled` of the two operand arrays as the region found them. -/
theorem final (c : Dev nD) : (dat0 V c).arrAt 2 cfg0.N = scaled (V c main_arg0) (V c main_v11) :=
  (dat0 V c).arrAt_eq_of_cover 2 _ (fun t _ => flushed_eq V c t) fun i => by
    have hi0 : (i 0).val < 100000 := (i 0).isLt
    have hi1 : (i 1).val < 128 := (i 1).isLt
    have hN : cfg0.N = 20 := N_0
    obtain ⟨t, ht⟩ : ∃ t : Fin cfg0.N, t.val = (i 0).val / 5000 := ⟨⟨(i 0).val / 5000, by rw [hN]; omega⟩, rfl⟩
    obtain ⟨-, -, -, -, e20, e21⟩ := idx_facts t
    refine ⟨t, flush0_2 t, ?_⟩
    rw [mem_blk]
    intro a
    match a with
    | ⟨0, _⟩ => show win0_2.index t (0 : Fin 2) * 5000 ≤ (i 0).val ∧ (i 0).val < win0_2.index t (0 : Fin 2) * 5000 + 5000; rw [e20, ht]; omega
    | ⟨1, _⟩ => show win0_2.index t (1 : Fin 2) * 128 ≤ (i 1).val ∧ (i 1).val < win0_2.index t (1 : Fin 2) * 128 + 128; rw [e21]; omega

end Cert.KernelIdeal.Scale

end
-- ==== Proof.ProjectValue.lean ====
/-
  The second kernel region, read as a value over the extended reals. At grid point `t` the body scales rows
  `5000 t … 5000 t + 4999` of its first operand by the second operand's column entry of that row, and multiplies the
  scaled block with the transposed weight matrix into a zero accumulator; the changes of float format in between are
  the identity here. The twenty row blocks tile the output array, so after the region the output array is ONE function of
  the three operand arrays as the region found them: `out (r, j) = ∑ k, (a (r, k) · s (r, 0)) · w (j, k)`.
-/
import proofs.«177741_j15436112462151_1_alg».proof.Proof.ScaleValue
import Idealize.ShloMosaic.PureOps.Ideal.Laws

set_option maxRecDepth 16384

noncomputable section

namespace Cert.KernelIdeal.Project

open Cert.KernelIdeal Cert.KernelIdeal.Gen Cert.KernelIdeal.Scale
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Entry `(r, k)` of the left factor for output entry `(r, j)`, in the whole array … -/
abbrev leftAt (i : S100000x128.Idx) (k : Fin 128) : S100000x128.Idx := fun a => match a with
  | ⟨0, _⟩ => ⟨(i 0).val, (i 0).isLt⟩
  | ⟨1, _⟩ => ⟨k.val, k.isLt⟩
/-- … and entry `(j, k)` of the weight matrix. -/
abbrev weightAt (i : S100000x128.Idx) (k : Fin 128) : S128x128.Idx := fun a => match a with
  | ⟨0, _⟩ => ⟨(i 1).val, (i 1).isLt⟩
  | ⟨1, _⟩ => ⟨k.val, k.isLt⟩
/-- The same inside one block of 5000 rows. -/
abbrev leftAtBlk (y : S5000x128.Idx) (k : Fin 128) : S5000x128.Idx := fun a => match a with
  | ⟨0, _⟩ => ⟨(y 0).val, (y 0).isLt⟩
  | ⟨1, _⟩ => ⟨k.val, k.isLt⟩
abbrev weightAtBlk (y : S5000x128.Idx) (k : Fin 128) : S128x128.Idx := fun a => match a with
  | ⟨0, _⟩ => ⟨(y 1).val, (y 1).isLt⟩
  | ⟨1, _⟩ => ⟨k.val, k.isLt⟩
/-- Entry `(k, j)` of the transposed weight block: where the product's right operand is read. -/
abbrev rightAtBlk (y : S5000x128.Idx) (k : Fin 128) : S128x128.Idx := fun a => match a with
  | ⟨0, _⟩ => ⟨k.val, k.isLt⟩
  | ⟨1, _⟩ => ⟨(y 1).val, (y 1).isLt⟩

/-- Rows of `a` scaled by the column `s`, then multiplied with the transpose of `w`. -/
def projected (a : FVec Ideal S100000x128 .f32) (s : FVec Ideal S100000x1 .f32) (w : FVec Ideal S128x128 .f32) : FVec Ideal S100000x128 .f32 :=
  fun i => ∑ k : Fin 128, (a (leftAt i k) * s (rowOf i)) * w (weightAt i k)

/-! The product's operand indices: at output entry `(p, j)` and contraction index `k` the left operand is read at
    `(p, k)` and the right at `(k, j)`. -/

theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's arithmetic at an entry `(p, j)` of the block: the sum over `k` of the loaded entry `(p, k)` times row
    `p`'s entry of the loaded column, times entry `(j, k)` of the loaded weight block. -/
theorem pay_apply (x0 : FVec Ideal S5000x128 .f32) (x1 : FVec Ideal S5000x1 .f32) (x2 : FVec Ideal S128x128 .f32) (y : S5000x128.Idx) :
    k1_pay1 (F := Ideal) x0 x1 x2 y = ∑ k : Fin 128, (x0 (leftAtBlk y k) * x1 (rowOfBlk y)) * x2 (weightAtBlk y k) := by
  unfold k1_pay1
  show FloatOps.matmul dot_S5000x128_S128x128_S5000x128_1_0_0_1_n_n none
      (mulf (shapeCast S5000x128 x0 Facts₀.shapeCasts_S5000x128_S5000x128) (broadcastTo S5000x128 (shapeCast S5000x1 x1 Facts₀.shapeCasts_S5000x1_S5000x1) Facts₀.broadcasts_S5000x1_S5000x128))
      (transpose S128x128 [1, 0] x2 Facts₀.transposes_S128x128_p1_0_S128x128) (constant S5000x128 .f32 0x00000000#32) y = _
  rw [shapeCast_self, shapeCast_self]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx y ((ValueIdx.contrEquiv1 dot_S5000x128_S128x128_S5000x128_1_0_0_1_n_n 128 rfl rfl).symm k) = leftAtBlk y k := funext fun a => Fin.ext (by
    match a with
    | ⟨0, _⟩ => exact lhs_0 _ _
    | ⟨1, _⟩ => exact (lhs_1 _ _).trans hk)
  have er : dot_S5000x128_S128x128_S5000x128_1_0_0_1_n_n.rhsIdx y ((ValueIdx.contrEquiv1 dot_S5000x128_S128x128_S5000x128_1_0_0_1_n_n 128 rfl rfl).symm k) = rightAtBlk y k := funext fun a => Fin.ext (by
    match a with
    | ⟨0, _⟩ => exact (rhs_0 _ _).trans hk
    | ⟨1, _⟩ => exact rhs_1 _ _)
  rw [el, er]
  have hb : broadcastTo S5000x128 x1 Facts₀.broadcasts_S5000x1_S5000x128 (leftAtBlk y k) = x1 (rowOfBlk y) :=
    broadcastTo_apply x1 Facts₀.broadcasts_S5000x1_S5000x128 (leftAtBlk y k) (rowOfBlk y) fun a => by
      match a with
      | ⟨0, _⟩ => show (y 0).val = if (5000 : Nat) = 1 then 0 else (y 0).val; rw [if_neg (by decide)]
      | ⟨1, _⟩ => show 0 = if (1 : Nat) = 1 then 0 else k.val; rw [if_pos rfl]
  have ht : transpose S128x128 [1, 0] x2 Facts₀.transposes_S128x128_p1_0_S128x128 (rightAtBlk y k) = x2 (weightAtBlk y k) :=
    transpose_apply [1, 0] x2 Facts₀.transposes_S128x128_p1_0_S128x128 (rightAtBlk y k) (weightAtBlk y k) fun b => by
      match b with
      | ⟨0, _⟩ => rfl
      | ⟨1, _⟩ => rfl
  show (x0 (leftAtBlk y k) * broadcastTo S5000x128 x1 Facts₀.broadcasts_S5000x1_S5000x128 (leftAtBlk y k))
      * transpose S128x128 [1, 0] x2 Facts₀.transposes_S128x128_p1_0_S128x128 (rightAtBlk y k) = _
  rw [hb, ht]

/-- The four windows' index maps over the grid: point `t` fetches row block `t` of the two row operands and writes
    row block `t`; the weight matrix is one block, fetched whole. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of `projected` of the three operand arrays as the region found them. -/
theorem flushed_eq (c : Dev nD) (t : Fin cfg1.N) :
    (dat1 V c).flushed 3 t = ((cfg1.win 3).blk t).view.read (Elt Ideal) (projected (V c main_v23) (V c main_v11) (V c main_arg2)) := by
  show (cfg1.win 3).cut (grid1.coords t) ((dat1 V c).after 3 t) = _
  rw [after1_3]
  unfold out1_3
  rw [View.canon_unit_zero off_zero]
  simp only [View.ld_unit_zero (S := S5000x128) off_zero, View.ld_unit_zero (S := S5000x1) off_zero, View.ld_unit_zero (S := S128x128) off_zero]
  obtain ⟨e00, e01, e10, e11, e20, e21, e30, e31⟩ := idx_facts t
  funext y
  show k1_pay1 (F := Ideal) (iblk1 V c 0 t) (iblk1 V c 1 t) (iblk1 V c 2 t) y
    = projected (V c main_v23) (V c main_v11) (V c main_arg2) (((cfg1.win 3).blk t).view.emb y)
  refine (pay_apply (iblk1 V c 0 t) (iblk1 V c 1 t) (iblk1 V c 2 t) y).trans ?_
  unfold projected
  refine Finset.sum_congr rfl fun k _ => ?_
  have h0 : iblk1 V c 0 t (leftAtBlk y k) = V c main_v23 (leftAt (((cfg1.win 3).blk t).view.emb y) k) := by
    show V c main_v23 (((cfg1.win 0).blk t).view.emb (leftAtBlk y k)) = _
    refine congrArg _ (funext fun a => Fin.ext ?_)
    match a with
    | ⟨0, _⟩ => show win1_0.index t (0 : Fin 2) * 5000 + 1 * (y 0).val = win1_3.index t (0 : Fin 2) * 5000 + 1 * (y 0).val; rw [e00, e30]
    | ⟨1, _⟩ => show win1_0.index t (1 : Fin 2) * 128 + 1 * k.val = k.val; rw [e01]; omega
  have h1 : iblk1 V c 1 t (rowOfBlk y) = V c main_v11 (rowOf (((cfg1.win 3).blk t).view.emb y)) := by
    show V c main_v11 (((cfg1.win 1).blk t).view.emb (rowOfBlk y)) = _
    refine congrArg _ (funext fun a => Fin.ext ?_)
    match a with
    | ⟨0, _⟩ => show win1_1.index t (0 : Fin 2) * 5000 + 1 * (y 0).val = win1_3.index t (0 : Fin 2) * 5000 + 1 * (y 0).val; rw [e10, e30]
    | ⟨1, _⟩ => show win1_1.index t (1 : Fin 2) * 1 + 1 * 0 = 0; rw [e11]
  have h2 : iblk1 V c 2 t (weightAtBlk y k) = V c main_arg2 (weightAt (((cfg1.win 3).blk t).view.emb y) k) := by
    show V c main_arg2 (((cfg1.win 2).blk t).view.emb (weightAtBlk y k)) = _
    refine congrArg _ (funext fun a => Fin.ext ?_)
    match a with
    | ⟨0, _⟩ => show win1_2.index t (0 : Fin 2) * 128 + 1 * (y 1).val = win1_3.index t (1 : Fin 2) * 128 + 1 * (y 1).val; rw [e20, e31]
    | ⟨1, _⟩ => show win1_2.index t (1 : Fin 2) * 128 + 1 * k.val = k.val; rw [e21]; omega
  rw [h0, h1, h2]

/-- An index of the output array lies in point `t`'s block iff each coordinate lies in the block's range on its axis. -/
theorem mem_blk (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v24).slice (win1_3.rect t)).set ↔ _
  rw [View.set_slice_whole, Rect.mem_set_unit]
  exact Iff.rfl

/-- The twenty row blocks tile the array (row `r` lies in block `r / 5000`), so after the region the output array
    is `projected` of the three operand arrays as the region found them. -/
theorem final (c : Dev nD) : (dat1 V c).arrAt 3 cfg1.N = projected (V c main_v23) (V c main_v11) (V c main_arg2) :=
  (dat1 V c).arrAt_eq_of_cover 3 _ (fun t _ => flushed_eq V c t) fun i => by
    have hi0 : (i 0).val < 100000 := (i 0).isLt
    have hi1 : (i 1).val < 128 := (i 1).isLt
    have hN : cfg1.N = 20 := N_1
    obtain ⟨t, ht⟩ : ∃ t : Fin cfg1.N, t.val = (i 0).val / 5000 := ⟨⟨(i 0).val / 5000, by rw [hN]; omega⟩, rfl⟩
    obtain ⟨-, -, -, -, -, -, e30, e31⟩ := idx_facts t
    refine ⟨t, flush1_3 t, ?_⟩
    rw [mem_blk]
    intro a
    match a with
    | ⟨0, _⟩ => show win1_3.index t (0 : Fin 2) * 5000 ≤ (i 0).val ∧ (i 0).val < win1_3.index t (0 : Fin 2) * 5000 + 5000; rw [e30, ht]; omega
    | ⟨1, _⟩ => show win1_3.index t (1 : Fin 2) * 128 ≤ (i 1).val ∧ (i 1).val < win1_3.index t (1 : Fin 2) * 128 + 128; rw [e31]; omega

end Cert.KernelIdeal.Project

end
-- ==== Proof.HostStages.lean ====
/-
  The host operations of the kernel's program, read as values. Before the first region they compute, from the edge list,
  each node's `(degree + 1)^(-1/2)` as a column; between the two regions they gather the scaled rows at the edges'
  sources, add them up at the edges' destinations, and add the scaled rows themselves. Each boundary of the run holds,
  at the buffers the next segment reads, these functions of what the boundary before held.
-/
import proofs.«177741_j15436112462151_1_alg».proof.Proof.Gen.KernelIdeal.Frame
import Idealize.ShloMosaic.Lib.StableHlo.Run
import Idealize.ShloMosaic.Lib.Pipeline.Value

set_option maxRecDepth 16384

noncomputable section

namespace Cert.KernelIdeal.Between

open Cert.KernelIdeal Cert.KernelIdeal.Gen
open Idealize.ShloMosaic Idealize.ShloMosaic.TcCoe Idealize.SL.Sem Idealize.ShloMosaic.StableHlo
open Idealize.ShloMosaic.Pipeline (Dat)

variable {F : FTy → Type} [FloatOps F]

/-- The edges' destination nodes: row 0 of the edge list. -/
def rows (e : (⟨S2x1600000, .i32⟩ : BufTy).Contents (Elt F)) : (⟨S1600000, .i32⟩ : BufTy).Contents (Elt F) :=
  shapeCast _ (extractStridedSlice S1x1600000 ![0, 0] e Facts₀.slices_S2x1600000_S1x1600000_0_0) Facts₀.shapeCasts_S1x1600000_S1600000

/-- The edges' source nodes: row 1 of the edge list. -/
def cols (e : (⟨S2x1600000, .i32⟩ : BufTy).Contents (Elt F)) : (⟨S1600000, .i32⟩ : BufTy).Contents (Elt F) :=
  shapeCast _ (extractStridedSlice S1x1600000 ![1, 0] e Facts₀.slices_S2x1600000_S1x1600000_1_0) Facts₀.shapeCasts_S1x1600000_S1600000

/-- Each node's `(degree + 1)^(-1/2)`, as a column: ones added up at the edges' destinations, plus one, inverse
    square root. -/
def invCol (e : (⟨S2x1600000, .i32⟩ : BufTy).Contents (Elt F)) : (⟨S100000x1, .f32⟩ : BufTy).Contents (Elt F) :=
  broadcastInDim S100000x1 ![0] Facts₀.bcast_S100000_S100000x1_0
    (Host.rsqrt (addf (Host.scatterAdd scatter_S100000_S1600000x1_S1600000_n_0_0_1
        (broadcastInDim S100000 ![] Facts₀.bcast_S_S100000 (constant S_ .f32 0x00000000#32))
        (broadcastInDim S1600000x1 ![0] Facts₀.bcast_S1600000_S1600000x1_0 (rows e))
        (broadcastInDim S1600000 ![] Facts₀.bcast_S_S1600000 (constant S_ .f32 0x3F800000#32)))
      (broadcastInDim S100000 ![] Facts₀.bcast_S_S100000 (constant S_ .f32 0x3F800000#32))))

/-- The rows of `xs` gathered at the edges' sources (a negative index counted from the end), added up at the edges'
    destinations, plus `xs` itself. -/
def aggregate (xs : (⟨S100000x128, .f32⟩ : BufTy).Contents (Elt F)) (r c : (⟨S1600000, .i32⟩ : BufTy).Contents (Elt F)) :
    (⟨S100000x128, .f32⟩ : BufTy).Contents (Elt F) :=
  addf (Host.scatterAdd scatter_S100000x128_S1600000x1_S1600000x128_1_0_0_1
      (broadcastInDim S100000x128 ![] Facts₀.bcast_S_S100000x128 (constant S_ .f32 0x00000000#32))
      (broadcastInDim S1600000x1 ![0] Facts₀.bcast_S1600000_S1600000x1_0 r)
      (Host.gather gather_S100000x128_S1600000x1_S1600000x128_1_0_n_n_0_1_1128 xs
        (broadcastInDim S1600000x1 ![0] Facts₀.bcast_S1600000_S1600000x1_0
          (select (cmpi .slt c (broadcastInDim S1600000 ![] Facts₀.bcast_S_S1600000 (constantI S_ 32 0#32)))
            (addi c (broadcastInDim S1600000 ![] Facts₀.bcast_S_S1600000 (constantI S_ 32 100000#32))) c))))
    xs

variable (m : (ℓ : Loc nD τ sig) → Buf (Elt F) ℓ) (ρ : Dev nD → PrngReg)

/-! ## What the first region is entered with -/

theorem entry0_inv (c : Dev nD) : V1 m ρ c main_v11 = invCol (m ((c : Thread nD τ).loc main_arg1)) := by
  dsimp only [V1, W1, hostOps0]
  after_results
  rfl

theorem entry0_rows (c : Dev nD) : V1 m ρ c main_v1 = rows (m ((c : Thread nD τ).loc main_arg1)) := by
  dsimp only [V1, W1, hostOps0]
  after_results
  rfl

theorem entry0_cols (c : Dev nD) : V1 m ρ c main_v3 = cols (m ((c : Thread nD τ).loc main_arg1)) := by
  dsimp only [V1, W1, hostOps0]
  after_results
  rfl

theorem entry0_arg0 (c : Dev nD) : V1 m ρ c main_arg0 = m ((c : Thread nD τ).loc main_arg0) := by
  dsimp only [V1, W1, hostOps0]
  after_results

theorem entry0_arg2 (c : Dev nD) : V1 m ρ c main_arg2 = m ((c : Thread nD τ).loc main_arg2) := by
  dsimp only [V1, W1, hostOps0]
  after_results

/-! ## What the first region leaves: its output array at the write-backs' fold, every buffer it only reads or does not
    touch as entered -/

theorem exit0_out (c : Dev nD) : V2 m ρ c main_v12 = (dat0 (V1 m ρ) c).arrAt 2 cfg0.N := W2_arr m ρ c 2

theorem exit0_inv (c : Dev nD) : V2 m ρ c main_v11 = V1 m ρ c main_v11 :=
  (W2_arr m ρ c 1).trans (((dat0 (V1 m ρ) c).arrAt_in 1 rfl _).trans (A_eq0 (V1 m ρ) c 1))

theorem exit0_rows (c : Dev nD) : V2 m ρ c main_v1 = V1 m ρ c main_v1 := W2_of_ne m ρ c main_v1 (by decide)
theorem exit0_cols (c : Dev nD) : V2 m ρ c main_v3 = V1 m ρ c main_v3 := W2_of_ne m ρ c main_v3 (by decide)
theorem exit0_arg2 (c : Dev nD) : V2 m ρ c main_arg2 = V1 m ρ c main_arg2 := W2_of_ne m ρ c main_arg2 (by decide)

/-! ## What the second region is entered with -/

/-- The second stretch of host operations from ANY contents `B`: the buffer the second region reads its first operand
    from ends at `aggregate` of three buffers of `B`; the column and the weight matrix are not written. -/
theorem stretch1_agg (B : Valuation τ sig (Elt F)) :
    StableHlo.after hostOps1 B (Proc.devRef .tc main_v23)
      = aggregate (B (Proc.devRef .tc main_v12)) (B (Proc.devRef .tc main_v1)) (B (Proc.devRef .tc main_v3)) := by
  dsimp only [hostOps1]
  after_results
  rfl
theorem stretch1_inv (B : Valuation τ sig (Elt F)) :
    StableHlo.after hostOps1 B (Proc.devRef .tc main_v11) = B (Proc.devRef .tc main_v11) := by
  dsimp only [hostOps1]
  after_results
theorem stretch1_arg2 (B : Valuation τ sig (Elt F)) :
    StableHlo.after hostOps1 B (Proc.devRef .tc main_arg2) = B (Proc.devRef .tc main_arg2) := by
  dsimp only [hostOps1]
  after_results

theorem entry1_agg (c : Dev nD) : V3 m ρ c main_v23 = aggregate (V2 m ρ c main_v12) (V2 m ρ c main_v1) (V2 m ρ c main_v3) :=
  stretch1_agg (W2 m ρ c)
theorem entry1_inv (c : Dev nD) : V3 m ρ c main_v11 = V2 m ρ c main_v11 := stretch1_inv (W2 m ρ c)
theorem entry1_arg2 (c : Dev nD) : V3 m ρ c main_arg2 = V2 m ρ c main_arg2 := stretch1_arg2 (W2 m ρ c)

/-! ## What the second region leaves in the result buffer -/

theorem exit1_out (c : Dev nD) : V4 m ρ c main_v24 = (dat1 (V3 m ρ) c).arrAt 3 cfg1.N := W4_arr m ρ c 3

end Cert.KernelIdeal.Between

end
-- ==== Proof.Bridge.lean ====
/-
  The two programs compute one function. With `s (r) = (deg r + 1)^(-1/2)` (the column `invCol`), both end with

      out (r, j) = ∑ k, (agg (r, k) · s (r)) · w (j, k),      agg = (rows of `xs` gathered at the edges' sources, summed
                                                               at the edges' destinations) + xs,      xs (r, k) = x (r, k) · s (r).

  The kernel's program computes `xs` and the last line in two pipelined regions, block of 5000 rows by block, and the
  sums over the edges on the host between them; the reference computes every line on the host. No law of arithmetic is
  needed beyond reading both matrix products as the same sum over `k`: the two sides apply the same operations to the same
  entries in the same order.
-/
import proofs.«177741_j15436112462151_1_alg».proof.Proof.ProjectValue
import proofs.«177741_j15436112462151_1_alg».proof.Proof.HostStages
import proofs.«177741_j15436112462151_1_alg».proof.Proof.KernelIdealNamed
import proofs.«177741_j15436112462151_1_alg».proof.Proof.Gen.ReferenceIdeal.Read

set_option maxRecDepth 16384

noncomputable section

namespace Cert.Bridge

open Idealize.ShloMosaic Idealize.ShloMosaic.TcCoe Idealize.SL.Sem
open Cert.KernelIdeal.Scale Cert.KernelIdeal.Project Cert.KernelIdeal.Between

/-- The common result, as one function of the three argument arrays. -/
def G (x : (⟨Cert.KernelIdeal.S100000x128, .f32⟩ : BufTy).Contents (Elt Ideal)) (e : (⟨Cert.KernelIdeal.S2x1600000, .i32⟩ : BufTy).Contents (Elt Ideal))
    (w : (⟨Cert.KernelIdeal.S128x128, .f32⟩ : BufTy).Contents (Elt Ideal)) : (⟨Cert.KernelIdeal.S100000x128, .f32⟩ : BufTy).Contents (Elt Ideal) :=
  projected (aggregate (scaled x (invCol e)) (rows e) (cols e)) (invCol e) w

/-! ## The kernel's program -/

section Kernel

open Cert.KernelIdeal Cert.KernelIdeal.Gen

variable (m : (ℓ : Loc nD τ sig) → Buf (Elt Ideal) ℓ) (ρ : Dev nD → PrngReg)

/-- The result buffer's final contents, walked back through the run's boundaries: the second region's write-backs are
    `projected` of its entry contents; its first operand there is the host's `aggregate` of the first region's output,
    which is `scaled` of the first argument and the column; the column and the weight matrix are read as the first
    stretch of host operations left them. -/
theorem kernel_value (c : Dev nD) :
    V4 m ρ c main_v24 = G (m ((c : Thread nD τ).loc main_arg0)) (m ((c : Thread nD τ).loc main_arg1)) (m ((c : Thread nD τ).loc main_arg2)) := by
  rw [exit1_out, Project.final (V3 m ρ) c, entry1_agg, entry1_inv, entry1_arg2, exit0_out, Scale.final (V1 m ρ) c,
    exit0_inv, exit0_rows, exit0_cols, exit0_arg2, entry0_inv, entry0_rows, entry0_cols, entry0_arg0, entry0_arg2]
  rfl

/-- The kernel's run with its result named: `G` of the launch contents of the arguments. -/
theorem kernel_run : θ_run defs (onTc (τ := τ) (main (F := Ideal))) ⟨m, fun _ => 0, ρ⟩ (fun r => ∀ c : Dev nD,
      r.2.mem ((c.tc : Thread nD τ).loc main_v24) = G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (kernel_value m ρ c), (h c).2⟩) (Cert.KernelIdeal.Named.run m ρ)

end Kernel

/-! ## The reference -/

section Reference

open Cert.ReferenceIdeal Cert.ReferenceIdeal.Read

/-- The reference's column is the kernel program's: the same host operations of the edge list. -/
theorem ref_inv (e : (⟨S2x1600000, .i32⟩ : BufTy).Contents (Elt Ideal)) : val_main_v11 (F := Ideal) e = invCol e := rfl
theorem ref_inv' (e : (⟨S2x1600000, .i32⟩ : BufTy).Contents (Elt Ideal)) : val_main_v25 (F := Ideal) e = invCol e := rfl

/-- The reference's scaled rows, entry by entry. -/
theorem ref_scaled (x : (⟨S100000x128, .f32⟩ : BufTy).Contents (Elt Ideal)) (e : (⟨S2x1600000, .i32⟩ : BufTy).Contents (Elt Ideal)) :
    val_main_v13 (F := Ideal) x e = scaled x (invCol e) := by
  funext i
  rw [val_main_v13_apply, val_main_v12_apply, ref_inv]
  have hi : idx_main_v12 i = rowOf i := funext fun a => by
    match a with
    | ⟨0, _⟩ => rfl
    | ⟨1, _⟩ => rfl
  rw [hi]
  rfl

/-- The reference's sums over the edges are the kernel program's `aggregate` of its scaled rows. -/
theorem ref_agg (x : (⟨S100000x128, .f32⟩ : BufTy).Contents (Elt Ideal)) (e : (⟨S2x1600000, .i32⟩ : BufTy).Contents (Elt Ideal)) :
    val_main_v24 (F := Ideal) x e = aggregate (val_main_v13 (F := Ideal) x e) (rows e) (cols e) := rfl

/-- The reference's result is `G`: its `dot_general` read as the sum over `k`, its operands entry by entry. -/
theorem ref_value (x : (⟨S100000x128, .f32⟩ : BufTy).Contents (Elt Ideal)) (e : (⟨S2x1600000, .i32⟩ : BufTy).Contents (Elt Ideal))
    (w : (⟨S128x128, .f32⟩ : BufTy).Contents (Elt Ideal)) : val_main_v29 (F := Ideal) x e w = G x e w := by
  funext i
  rw [val_main_v29_apply]
  unfold G projected
  refine Finset.sum_congr rfl fun k _ => ?_
  rw [val_main_v27_apply, val_main_v26_apply, val_main_v28_apply, ref_inv', ref_agg, ref_scaled]
  have h0 : lidx_main_v29 i k = leftAt i k := funext fun a => by
    match a with
    | ⟨0, _⟩ => rfl
    | ⟨1, _⟩ => rfl
  have h1 : idx_main_v26 (lidx_main_v29 i k) = rowOf i := funext fun a => by
    match a with
    | ⟨0, _⟩ => rfl
    | ⟨1, _⟩ => rfl
  have h2 : idx_main_v28 (ridx_main_v29 i k) = weightAt i k := funext fun a => by
    match a with
    | ⟨0, _⟩ => rfl
    | ⟨1, _⟩ => rfl
  rw [h0, h1, h2]
  rfl

end Reference

end Cert.Bridge

end
-- ==== Proof.lean ====
/-
  A graph-convolution layer: with `deg r` the number of edges whose destination is node `r` and
  `s (r) = (deg r + 1)^(-1/2)`,

      out = (s-scaled rows of ((sum over the edges into r of xs at the edge's source) + xs)) · Wᵀ,      xs (r, ·) = s (r) · x (r, ·).

  The kernel's program scales the rows of `x` in one pipelined region, sums over the edges on the host, and scales again
  and multiplies with `Wᵀ` in a second pipelined region (in bf16 at the word level: a change of float format is the
  identity over the extended reals); the reference does every step on the host. Both are the one function `Bridge.G` of the
  three arguments (Proof/Bridge.lean), so the two runs end with equal results whatever the arguments hold: no finiteness
  is used. The three frames are the generated ones (the reference's is its generated run with the result dropped), and
  the idealization rewrote nothing, so `preserves` is trivial.
-/
import proofs.«177741_j15436112462151_1_alg».proof.Defs
import proofs.«177741_j15436112462151_1_alg».proof.Proof.Gen.Kernel
import proofs.«177741_j15436112462151_1_alg».proof.Proof.Gen.Kernel.Skeleton
import proofs.«177741_j15436112462151_1_alg».proof.Proof.Gen.Kernel.Launch
import proofs.«177741_j15436112462151_1_alg».proof.Proof.Gen.Kernel.Points
import proofs.«177741_j15436112462151_1_alg».proof.Proof.Gen.Kernel.Frame
import proofs.«177741_j15436112462151_1_alg».proof.Proof.Gen.KernelIdeal
import proofs.«177741_j15436112462151_1_alg».proof.Proof.Gen.KernelIdeal.Skeleton
import proofs.«177741_j15436112462151_1_alg».proof.Proof.Gen.KernelIdeal.Launch
import proofs.«177741_j15436112462151_1_alg».proof.Proof.Gen.KernelIdeal.Points
import proofs.«177741_j15436112462151_1_alg».proof.Proof.Gen.KernelIdeal.Frame
import proofs.«177741_j15436112462151_1_alg».proof.Proof.Gen.ReferenceIdeal
import proofs.«177741_j15436112462151_1_alg».proof.Proof.Gen.ReferenceIdeal.Run
import proofs.«177741_j15436112462151_1_alg».proof.Proof.Gen.ReferenceIdeal.Read
import proofs.«177741_j15436112462151_1_alg».proof.Proof.Gen.Pre_finite_inputs
import proofs.«177741_j15436112462151_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- Both runs end with `Bridge.G` of the arguments: the kernel's by its regions and host stretches read as values, the
    reference's by its generated run; the two memories agree on the arguments. -/
theorem algebraic : Cert.algebraic_KernelIdeal_ReferenceIdeal := by
  intro m ρ m' ρ' _ hagree
  refine ⟨_, Cert.Bridge.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.Bridge.ref_value, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
